-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x1024x128 : Shape := ⟨3, ![16, 1024, 128]⟩
abbrev S16x1024x1024 : Shape := ⟨3, ![16, 1024, 1024]⟩
abbrev S128x128 : Shape := ⟨2, ![128, 128]⟩
abbrev S_ : Shape := ⟨0, ![]⟩
abbrev S1024x1024 : Shape := ⟨2, ![1024, 1024]⟩
abbrev S1x1024x1024 : Shape := ⟨3, ![1, 1024, 1024]⟩
abbrev S16x1024 : Shape := ⟨2, ![16, 1024]⟩

class Facts : Prop where
  bcast_S_S16x1024x128 : S_.BroadcastsInDim S16x1024x128 (![] : Fin 0 → Fin S16x1024x128.rank)
  reducesTo_S16x1024x128_S_d0_1_2 : S16x1024x128.ReducesTo [0, 1, 2] S_
  h_S_ : 0 < S_.numel
  bcast_S_S16x1024x1024 : S_.BroadcastsInDim S16x1024x1024 (![] : Fin 0 → Fin S16x1024x1024.rank)
  reducesTo_S16x1024x1024_S_d0_1_2 : S16x1024x1024.ReducesTo [0, 1, 2] S_
  bcast_S_S128x128 : S_.BroadcastsInDim S128x128 (![] : Fin 0 → Fin S128x128.rank)
  reducesTo_S128x128_S_d0_1 : S128x128.ReducesTo [0, 1] S_
  bcast_S_S1024x1024 : S_.BroadcastsInDim S1024x1024 (![] : Fin 0 → Fin S1024x1024.rank)
  bcast_S1024x1024_S1x1024x1024_1_2 : S1024x1024.BroadcastsInDim S1x1024x1024 (![1, 2] : Fin 2 → Fin S1x1024x1024.rank)
  bcast_S1x1024x1024_S16x1024x1024_0_1_2 : S1x1024x1024.BroadcastsInDim S16x1024x1024 (![0, 1, 2] : Fin 3 → Fin S16x1024x1024.rank)
  reducesTo_S16x1024x1024_S16x1024_d2 : S16x1024x1024.ReducesTo [2] S16x1024
  bcast_S_S16x1024 : S_.BroadcastsInDim S16x1024 (![] : Fin 0 → Fin S16x1024.rank)
  reducesTo_S16x1024_S_d0_1 : S16x1024.ReducesTo [0, 1] S_

variable [Facts]

def fn_part1 {F : FTy → Type} [FloatOps F] (main_arg1 : FVec F S16x1024x1024 .f32) (main_v13 : IVec S_ 1) (main_v14 : IVec S1024x1024 32) (main_v15 : IVec S1024x1024 32) (main_v16 : IVec S1024x1024 32) : IVec S_ 1 :=
  let main_v17 : IVec S1024x1024 32 := addi main_v14 main_v16
  let main_v18 : IVec S1024x1024 1 := cmpi .eq main_v17 main_v15
  let main_v19 : FVec F S1024x1024 .f32 := uitofp .f32 main_v18
  let main_v20 : FVec F S1x1024x1024 .f32 := broadcastInDim S1x1024x1024 ![1, 2] bcast_S1024x1024_S1x1024x1024_1_2 main_v19
  let main_v21 : FVec F S16x1024x1024 .f32 := broadcastInDim S16x1024x1024 ![0, 1, 2] bcast_S1x1024x1024_S16x1024x1024_0_1_2 main_v20
  let main_v22 : FVec F S16x1024x1024 .f32 := addf main_arg1 main_v21
  let main_cst_5 : FVec F S_ .f32 := constant S_ .f32 0x00000000#32
  let main_v23 : FVec F S16x1024 .f32 := (fun x v => Host.reduceAdd x v reducesTo_S16x1024x1024_S16x1024_d2 h_S_) main_v22 main_cst_5
  let main_cst_6 : FVec F S_ .f32 := constant S_ .f32 0x00000000#32
  let main_v24 : FVec F S16x1024 .f32 := broadcastInDim S16x1024 ![] bcast_S_S16x1024 main_cst_6
  let main_v25 : IVec S16x1024 1 := cmpf .ogt main_v23 main_v24
  let main_c_7 : IVec S_ 1 := constantI S_ 1 1#1
  let main_v26 : IVec S_ 1 := (fun x v => Host.reduce IntOp.andi x v reducesTo_S16x1024_S_d0_1 h_S_) main_v25 main_c_7
  let main_v27 : IVec S_ 1 := andi main_v13 main_v26
  main_v27

def fn {F : FTy → Type} [FloatOps F] (main_arg0 : FVec F S16x1024x128 .f32) (main_arg1 : FVec F S16x1024x1024 .f32) (main_arg2 : FVec F S128x128 .f32) : IVec S_ 1 :=
  let main_v0 : FVec F S16x1024x128 .f32 := Host.absf main_arg0
  let main_cst : FVec F S_ .f32 := constant S_ .f32 0x7F800000#32
  let main_v1 : FVec F S16x1024x128 .f32 := broadcastInDim S16x1024x128 ![] bcast_S_S16x1024x128 main_cst
  let main_v2 : IVec S16x1024x128 1 := cmpf .olt main_v0 main_v1
  let main_c : IVec S_ 1 := constantI S_ 1 1#1
  let main_v3 : IVec S_ 1 := (fun x v => Host.reduce IntOp.andi x v reducesTo_S16x1024x128_S_d0_1_2 h_S_) main_v2 main_c
  let main_v4 : FVec F S16x1024x1024 .f32 := Host.absf main_arg1
  let main_cst_0 : FVec F S_ .f32 := constant S_ .f32 0x7F800000#32
  let main_v5 : FVec F S16x1024x1024 .f32 := broadcastInDim S16x1024x1024 ![] bcast_S_S16x1024x1024 main_cst_0
  let main_v6 : IVec S16x1024x1024 1 := cmpf .olt main_v4 main_v5
  let main_c_1 : IVec S_ 1 := constantI S_ 1 1#1
  let main_v7 : IVec S_ 1 := (fun x v => Host.reduce IntOp.andi x v reducesTo_S16x1024x1024_S_d0_1_2 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : IVec S1024x1024 32 := iotaInDim S1024x1024 32 0
  let main_v15 : IVec S1024x1024 32 := iotaInDim S1024x1024 32 1
  let main_c_4 : IVec S_ 32 := constantI S_ 32 0#32
  let main_v16 : IVec S1024x1024 32 := broadcastInDim S1024x1024 ![] bcast_S_S1024x1024 main_c_4
  fn_part1 (F := F) main_arg1 main_v13 main_v14 main_v15 main_v16
-- ==== Kernel.lean ====
abbrev S16x1024x128 : Shape := ⟨3, ![16, 1024, 128]⟩
abbrev S16x1024x1024 : Shape := ⟨3, ![16, 1024, 1024]⟩
abbrev S128x128 : Shape := ⟨2, ![128, 128]⟩
abbrev S1x1024x1024 : Shape := ⟨3, ![1, 1024, 1024]⟩
abbrev S1x1024x128 : Shape := ⟨3, ![1, 1024, 128]⟩
abbrev S1024x1024 : Shape := ⟨2, ![1024, 1024]⟩
abbrev S1024x128 : Shape := ⟨2, ![1024, 128]⟩
abbrev S1024 : Shape := ⟨1, ![1024]⟩
abbrev S1024x1 : Shape := ⟨2, ![1024, 1]⟩

abbrev nBuf : Space → Nat
  | .hbm => 4
  | .vmem => 7
  | .smem => 0
  | _ => 0

abbrev bufTy : (tb : Table) → Fin (tcTables nBuf tb) → BufTy
  | .hbm, ⟨0, _⟩ => ⟨S16x1024x128, .f32⟩
  | .hbm, ⟨1, _⟩ => ⟨S16x1024x1024, .f32⟩
  | .hbm, ⟨2, _⟩ => ⟨S128x128, .f32⟩
  | .hbm, ⟨3, _⟩ => ⟨S16x1024x128, .f32⟩
  | .local _ .vmem, ⟨0, _⟩ => ⟨S1x1024x1024, .f32⟩
  | .local _ .vmem, ⟨1, _⟩ => ⟨S1x1024x1024, .f32⟩
  | .local _ .vmem, ⟨2, _⟩ => ⟨S1x1024x128, .f32⟩
  | .local _ .vmem, ⟨3, _⟩ => ⟨S1x1024x128, .f32⟩
  | .local _ .vmem, ⟨4, _⟩ => ⟨S128x128, .f32⟩
  | .local _ .vmem, ⟨5, _⟩ => ⟨S1x1024x128, .f32⟩
  | .local _ .vmem, ⟨6, _⟩ => ⟨S1x1024x128, .f32⟩
  | _, _ => ⟨S16x1024x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  inb_S1x1024x128_S1x1024x128_0_0_0 : ∀ a, (![0, 0, 0] : Fin 3 → Nat) a + S1x1024x128.size a ≤ S1x1024x128.size a
  h_S1x1024x128 : 0 < S1x1024x128.numel
  shapeCasts_S1x1024x128_S1024x128 : S1x1024x128.ShapeCasts S1024x128
  reduces_S1024x1024_S1024 : S1024x1024.Reduces [1] S1024
  shapeCasts_S1024_S1024x1 : S1024.ShapeCasts S1024x1
  broadcasts_S1024x1_S1024x128 : S1024x1.Broadcasts S1024x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S1024x128_S1x1024x128 : S1024x128.ShapeCasts S1x1024x128
  dot_S1024x1024_S1024x128_S1024x128_1_0_0_1_n_n_wf : DotDims.WF S1024x1024 S1024x128 S1024x128 [1] [0] [0] [1] [] []
  dot_S1024x128_S128x128_S1024x128_1_0_0_1_n_n_wf : DotDims.WF S1024x128 S128x128 S1024x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x1024.size a ≤ S16x1024x1024.size a
  hwx0_0 : ∀ i : grid0.Coords, EltTy.bits .f32 = 32 ∨ (Rect.block (s := S16x1024x1024) S1x1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x128.size a ≤ S16x1024x128.size a
  hwx0_1 : ∀ i : grid0.Coords, EltTy.bits .f32 = 32 ∨ (Rect.block (s := S16x1024x128) S1x1024x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024x128.size a ≤ S16x1024x128.size a
  hwx0_3 : ∀ i : grid0.Coords, EltTy.bits .f32 = 32 ∨ (Rect.block (s := S16x1024x128) S1x1024x128.size (cc0_transform_3 i) (hinb0_3 i)).WholeWords (EltTy.packing .f32)

variable [Facts₀]

def dot_S1024x1024_S1024x128_S1024x128_1_0_0_1_n_n : DotDims S1024x1024 S1024x128 S1024x128 where
  lhsContracting := [1]
  rhsContracting := [0]
  lhsNonContracting := [0]
  rhsNonContracting := [1]
  lhsBatch := []
  rhsBatch := []
  wf := dot_S1024x1024_S1024x128_S1024x128_1_0_0_1_n_n_wf
def dot_S1024x128_S128x128_S1024x128_1_0_0_1_n_n : DotDims S1024x128 S128x128 S1024x128 where
  lhsContracting := [1]
  rhsContracting := [0]
  lhsNonContracting := [0]
  rhsNonContracting := [1]
  lhsBatch := []
  rhsBatch := []
  wf := dot_S1024x128_S128x128_S1024x128_1_0_0_1_n_n_wf

abbrev win0_0 : Pipeline.Window sig grid0 :=
  Pipeline.Window.ofSpec (Memref.whole main_arg1) S1x1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S1x1024x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x1024x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S16x1024x128 : Shape := ⟨3, ![16, 1024, 128]⟩
abbrev S16x1024x1024 : Shape := ⟨3, ![16, 1024, 1024]⟩
abbrev S128x128 : Shape := ⟨2, ![128, 128]⟩
abbrev S1024x1024 : Shape := ⟨2, ![1024, 1024]⟩
abbrev S_ : Shape := ⟨0, ![]⟩
abbrev S1x1024x1024 : Shape := ⟨3, ![1, 1024, 1024]⟩
abbrev S16x1024 : Shape := ⟨2, ![16, 1024]⟩
abbrev S16x1024x1 : Shape := ⟨3, ![16, 1024, 1]⟩
abbrev S16x1x1024 : Shape := ⟨3, ![16, 1, 1024]⟩

abbrev nBuf : Space → Nat
  | .hbm => 27
  | .vmem => 0
  | .smem => 0
  | _ => 0

abbrev bufTy : (tb : Table) → Fin (tcTables nBuf tb) → BufTy
  | .hbm, ⟨0, _⟩ => ⟨S16x1024x128, .f32⟩
  | .hbm, ⟨1, _⟩ => ⟨S16x1024x1024, .f32⟩
  | .hbm, ⟨2, _⟩ => ⟨S128x128, .f32⟩
  | .hbm, ⟨3, _⟩ => ⟨S1024x1024, .i32⟩
  | .hbm, ⟨4, _⟩ => ⟨S1024x1024, .i32⟩
  | .hbm, ⟨5, _⟩ => ⟨S_, .i32⟩
  | .hbm, ⟨6, _⟩ => ⟨S1024x1024, .i32⟩
  | .hbm, ⟨7, _⟩ => ⟨S1024x1024, .i32⟩
  | .hbm, ⟨8, _⟩ => ⟨S1024x1024, .i1⟩
  | .hbm, ⟨9, _⟩ => ⟨S1024x1024, .f32⟩
  | .hbm, ⟨10, _⟩ => ⟨S1x1024x1024, .f32⟩
  | .hbm, ⟨11, _⟩ => ⟨S16x1024x1024, .f32⟩
  | .hbm, ⟨12, _⟩ => ⟨S16x1024x1024, .f32⟩
  | .hbm, ⟨13, _⟩ => ⟨S_, .f32⟩
  | .hbm, ⟨14, _⟩ => ⟨S16x1024, .f32⟩
  | .hbm, ⟨15, _⟩ => ⟨S16x1024, .f32⟩
  | .hbm, ⟨16, _⟩ => ⟨S_, .f32⟩
  | .hbm, ⟨17, _⟩ => ⟨S16x1024, .f32⟩
  | .hbm, ⟨18, _⟩ => ⟨S16x1024, .f32⟩
  | .hbm, ⟨19, _⟩ => ⟨S16x1024x1, .f32⟩
  | .hbm, ⟨20, _⟩ => ⟨S16x1024x1024, .f32⟩
  | .hbm, ⟨21, _⟩ => ⟨S16x1024x1024, .f32⟩
  | .hbm, ⟨22, _⟩ => ⟨S16x1x1024, .f32⟩
  | .hbm, ⟨23, _⟩ => ⟨S16x1024x1024, .f32⟩
  | .hbm, ⟨24, _⟩ => ⟨S16x1024x1024, .f32⟩
  | .hbm, ⟨25, _⟩ => ⟨S16x1024x128, .f32⟩
  | .hbm, ⟨26, _⟩ => ⟨S16x1024x128, .f32⟩
  | _, _ => ⟨S16x1024x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst : Ref sig .tc := ⟨.hbm, 13, rfl⟩
abbrev main_v9 : Ref sig .tc := ⟨.hbm, 14, rfl⟩
abbrev main_v10 : Ref sig .tc := ⟨.hbm, 15, rfl⟩
abbrev main_cst_0 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩

abbrev nD : Nat := 1
abbrev τ : Topo := Topo.v7x

variable {F : FTy → Type} [FloatOps F]

class Facts₀ : Prop where
  bcast_S_S1024x1024 : S_.BroadcastsInDim S1024x1024 (![] : Fin 0 → Fin S1024x1024.rank)
  bcast_S1024x1024_S1x1024x1024_1_2 : S1024x1024.BroadcastsInDim S1x1024x1024 (![1, 2] : Fin 2 → Fin S1x1024x1024.rank)
  bcast_S1x1024x1024_S16x1024x1024_0_1_2 : S1x1024x1024.BroadcastsInDim S16x1024x1024 (![0, 1, 2] : Fin 3 → Fin S16x1024x1024.rank)
  reducesTo_S16x1024x1024_S16x1024_d2 : S16x1024x1024.ReducesTo [2] S16x1024
  h_S_ : 0 < S_.numel
  bcast_S_S16x1024 : S_.BroadcastsInDim S16x1024 (![] : Fin 0 → Fin S16x1024.rank)
  bcast_S16x1024_S16x1024x1_0_1 : S16x1024.BroadcastsInDim S16x1024x1 (![0, 1] : Fin 2 → Fin S16x1024x1.rank)
  bcast_S16x1024x1_S16x1024x1024_0_1_2 : S16x1024x1.BroadcastsInDim S16x1024x1024 (![0, 1, 2] : Fin 3 → Fin S16x1024x1024.rank)
  bcast_S16x1024_S16x1x1024_0_2 : S16x1024.BroadcastsInDim S16x1x1024 (![0, 2] : Fin 2 → Fin S16x1x1024.rank)
  bcast_S16x1x1024_S16x1024x1024_0_1_2 : S16x1x1024.BroadcastsInDim S16x1024x1024 (![0, 1, 2] : Fin 3 → Fin S16x1024x1024.rank)
  dot_S16x1024x1024_S16x1024x128_S16x1024x128_2_1_1_2_0_0_wf : DotDims.WF S16x1024x1024 S16x1024x128 S16x1024x128 [2] [1] [1] [2] [0] [0]
  dot_S16x1024x128_S128x128_S16x1024x128_2_0_01_1_n_n_wf : DotDims.WF S16x1024x128 S128x128 S16x1024x128 [2] [0] [0, 1] [1] [] []

variable [Facts₀]

def dot_S16x1024x1024_S16x1024x128_S16x1024x128_2_1_1_2_0_0 : DotDims S16x1024x1024 S16x1024x128 S16x1024x128 where
  lhsContracting := [2]
  rhsContracting := [1]
  lhsNonContracting := [1]
  rhsNonContracting := [2]
  lhsBatch := [0]
  rhsBatch := [0]
  wf := dot_S16x1024x1024_S16x1024x128_S16x1024x128_2_1_1_2_0_0_wf
def dot_S16x1024x128_S128x128_S16x1024x128_2_0_01_1_n_n : DotDims S16x1024x128 S128x128 S16x1024x128 where
  lhsContracting := [2]
  rhsContracting := [0]
  lhsNonContracting := [0, 1]
  rhsNonContracting := [1]
  lhsBatch := []
  rhsBatch := []
  wf := dot_S16x1024x128_S128x128_S16x1024x128_2_0_01_1_n_n_wf

class Facts : Prop extends Facts₀ where

variable [Facts]
-- ==== Proof.GcnAlgebra.lean ====
/-
  One batch of the symmetrically normalised graph convolution, read on the extended reals.

  For a square matrix `a` (the adjacency), features `x` and weights `w`, put `deg i = Σ_j a i j + 1`, the
  row sum of `a + I`, and `d i = deg i ^ (-1/2)`.  The convolution is
  `out i g = Σ_f (Σ_j (a + I) i j · d i · d j · x j f) · w f g`.
  Because `d` is a diagonal scaling it can be pulled through the product with `a + I`:
  `Σ_j (a + I) i j · d i · d j · x j f = d i · (Σ_j a i j · (d j · x j f) + d i · x i f)`,
  which never forms the normalised matrix.  This module states both arrangements over the
  extended reals, with the reciprocal square root spelt the two ways the programs spell it
  (`rsqrt` against `1 / sqrt`), and proves them equal when every entry is a real number and every
  row degree is positive: then both spellings give the real `(√deg)⁻¹`, every intermediate value is
  a real number, and the identity is distributivity over a finite sum in `ℝ`.
-/
import Idealize.ShloMosaic.PureOps.Ideal

noncomputable section

namespace Cert.Gcn

open Idealize.ShloMosaic

/-- The embedding of the reals in the extended reals commutes with finite sums. -/
theorem coe_sum {α : Type} (s : Finset α) (f : α → ℝ) :
    ((∑ i ∈ s, f i : ℝ) : EReal) = ∑ i ∈ s, (f i : EReal) := by
  classical
  refine Finset.induction_on s (by simp) ?_
  intro a s ha ih
  rw [Finset.sum_insert ha, Finset.sum_insert ha, EReal.coe_add, ih]

variable {ι κ μ : Type} [Fintype ι] [DecidableEq ι] [Fintype κ] [Fintype μ]

/-- The scaling pulled through the product: with `D i = rsqrt (Σ_j a i j + 1)`,
    `Σ_f (D i · (Σ_j a i j · (D j · x j f) + D i · x i f)) · w f g`. -/
def pulledThrough (a : ι → ι → EReal) (x : ι → κ → EReal) (w : κ → μ → EReal) (i : ι) (g : μ) : EReal :=
  ∑ f, (Ideal.rsqrt ((∑ j, a i j) + 1)
        * ((∑ j, a i j * (Ideal.rsqrt ((∑ l, a j l) + 1) * x j f)) + Ideal.rsqrt ((∑ j, a i j) + 1) * x i f)) * w f g

/-- The normalised matrix formed entry by entry: with `e` the identity matrix's entries and
    `E i = 1 / sqrt (0 + Σ_l (a i l + e i l))`,
    `Σ_f (Σ_j ((a i j + e i j) · E i) · E j · x j f) · w f g`. -/
def normalisedMatrix (e : ι → ι → EReal) (a : ι → ι → EReal) (x : ι → κ → EReal) (w : κ → μ → EReal)
    (i : ι) (g : μ) : EReal :=
  ∑ f, (∑ j, (((a i j + e i j) * Ideal.div 1 (Ideal.sqrt (0 + ∑ l, (a i l + e i l))))
                * Ideal.div 1 (Ideal.sqrt (0 + ∑ l, (a j l + e j l)))) * x j f) * w f g

/-- Over the reals: pulling the diagonal scaling `d` through the product with `a + I`. -/
theorem real_identity (a : ι → ι → ℝ) (x : ι → κ → ℝ) (d : ι → ℝ) (i : ι) (f : κ) :
    d i * ((∑ j, a i j * (d j * x j f)) + d i * x i f)
      = ∑ j, (((a i j + if i = j then 1 else 0) * d i) * d j) * x j f := by
  have h : ∀ j, (((a i j + if i = j then 1 else 0) * d i) * d j) * x j f
      = d i * (a i j * (d j * x j f)) + (if i = j then d i * (d j * x j f) else 0) := by
    intro j
    by_cases hij : i = j
    · rw [if_pos hij, if_pos hij]; ring
    · rw [if_neg hij, if_neg hij]; ring
  rw [Finset.sum_congr rfl fun j _ => h j, Finset.sum_add_distrib, Finset.sum_ite_eq Finset.univ i,
    if_pos (Finset.mem_univ i), ← Finset.mul_sum]
  ring

/-- The two arrangements agree on real entries with positive row degrees of `a + I`. -/
theorem pulledThrough_eq_normalisedMatrix (a : ι → ι → ℝ) (x : ι → κ → ℝ) (w : κ → μ → ℝ)
    (e : ι → ι → EReal) (he : ∀ i j, e i j = ((if i = j then 1 else 0 : ℝ) : EReal))
    (hpos : ∀ i, (0 : EReal) < 0 + ∑ l, ((a i l : EReal) + e i l)) (i : ι) (g : μ) :
    pulledThrough (fun i j => (a i j : EReal)) (fun j f => (x j f : EReal)) (fun f g => (w f g : EReal)) i g
      = normalisedMatrix e (fun i j => (a i j : EReal)) (fun j f => (x j f : EReal)) (fun f g => (w f g : EReal)) i g := by
  -- the row degree as a real number, in both spellings
  have hdegR : ∀ i, 0 + ∑ l, ((a i l : EReal) + ((if i = l then 1 else 0 : ℝ) : EReal))
      = (((∑ l, a i l) + 1 : ℝ) : EReal) := by
    intro i
    rw [zero_add]
    simp only [← EReal.coe_add]
    rw [← coe_sum, Finset.sum_add_distrib, Finset.sum_ite_eq Finset.univ i, if_pos (Finset.mem_univ i)]
  have hdegK : ∀ i, (∑ j, (a i j : EReal)) + 1 = (((∑ l, a i l) + 1 : ℝ) : EReal) := by
    intro i
    rw [← coe_sum, ← EReal.coe_one, ← EReal.coe_add]
  have hdeg : ∀ i, (0 : ℝ) < (∑ l, a i l) + 1 := by
    intro i
    have h := hpos i
    simp only [he] at h
    rw [hdegR i] at h
    exact_mod_cast h
  -- both spellings of the reciprocal square root are the real (√deg)⁻¹
  have hK : ∀ i, Ideal.rsqrt (((∑ l, a i l) + 1 : ℝ) : EReal) = (((Real.sqrt ((∑ l, a i l) + 1))⁻¹ : ℝ) : EReal) := by
    intro i
    rw [Ideal.rsqrt_coe, if_neg (not_lt.2 (hdeg i).le), if_neg (hdeg i).ne']
  have hR : ∀ i, Ideal.div 1 (Ideal.sqrt (((∑ l, a i l) + 1 : ℝ) : EReal))
      = (((Real.sqrt ((∑ l, a i l) + 1))⁻¹ : ℝ) : EReal) := by
    intro i
    rw [Ideal.sqrt_coe, if_neg (not_lt.2 (hdeg i).le), Ideal.div_coe (Real.sqrt_ne_zero'.2 (hdeg i)), one_mul, one_div]
  unfold pulledThrough normalisedMatrix
  simp only [he]
  simp only [hdegR, hdegK, hK, hR]
  simp only [← EReal.coe_mul, ← EReal.coe_add, ← coe_sum]
  refine congrArg _ (Finset.sum_congr rfl fun f _ => ?_)
  rw [real_identity a x (fun i => (Real.sqrt ((∑ l, a i l) + 1))⁻¹) i f]

end Cert.Gcn

end
-- ==== Proof.LibColumn.lean ====
/-
  A column kept after a sum over the last axis, read at an index.

  A length-a vector viewed as an a × 1 column reads, at (i, 0), the vector at i; an a × 1 column repeated along
  b columns reads, at (i, j), the column at (i, 0), whatever j. Together they say that a row total broadcast
  back over its row is that total at every column.
-/
import Idealize.ShloMosaic.Lib.Pipeline.Value
import Idealize.ShloMosaic.Lib.ValueIdx

namespace Cert.LibColumn

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, q)`, the column at `(p, 0)`. -/
theorem broadcastTo_a1_ab_apply {a b : ℕ} (v : (⟨2, ![a, 1]⟩ : Shape).Idx → α) (h : (⟨2, ![a, 1]⟩ : Shape).Broadcasts ⟨2, ![a, b]⟩)
    (p : Fin a) (q : Fin b) : broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

end Cert.LibColumn
-- ==== Proof.LibDotPlain.lean ====
/-
  The plain product of two matrices, read at one entry over the extended reals.

  A plain product of an M × K matrix by a K × N matrix has no batch axis; the left operand is contracted on its
  axis 1 and the right operand on its axis 0.  For the output entry (i, j) and the contraction position k, the left
  operand is read at (i, k) — its index keeps the output's row on axis 0 and takes the contraction position on
  axis 1 — and the right operand is read at (k, j) — its index takes the contraction position on axis 0 and keeps
  the output's column on axis 1.  The contraction has one axis, of extent K, so the sum over its index set is the sum
  over k < K.  Hence entry (i, j) of the product is Σₖ l(i, k) · r(k, j), both for the product a host program
  computes and for the product a kernel accumulates into a zero accumulator.  All of this holds for every M, K, N.
-/
import Idealize.ShloMosaic.PureOps.Ideal.Laws
import Idealize.ShloMosaic.Lib.ValueIdx

noncomputable section

namespace Cert.LibDot

open Idealize.ShloMosaic Idealize.ShloMosaic.ValueIdx

variable (M K N : Nat)

/-- Axis 0 of the left operand's index is the output's row. -/
theorem lhs_plain_0 (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from
      List.mem_singleton.mpr rfl)]
  rfl

/-- Axis 1 of the left operand's index is the contraction position. -/
theorem lhs_plain_1 (i : (⟨2, ![M, N]⟩ : Shape).Idx) (q : (DotDims.plain M K N).contr.Idx) :
    ((DotDims.plain M K N).lhsIdx i q 1).val = (q ⟨0, Nat.one_pos⟩).val :=
  (DotDims.plain M K N).lhsIdx_val_of_single rfl i q

/-- Axis 0 of the right operand's index is the contraction position. -/
theorem rhs_plain_0 (i : (⟨2, ![M, N]⟩ : Shape).Idx) (q : (DotDims.plain M K N).contr.Idx) :
    ((DotDims.plain M K N).rhsIdx i q 0).val = (q ⟨0, Nat.one_pos⟩).val :=
  (DotDims.plain M K N).rhsIdx_val_of_single rfl i q

/-- Axis 1 of the right operand's index is the output's column. -/
theorem rhs_plain_1 (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from
      List.mem_singleton.mpr rfl)]
  rfl

/-- At output entry (i, j) and contraction position k the left operand is read at (i, k). -/
theorem lhsIdx_plain (i : Fin M) (j : Fin N) (k : Fin K) :
    (DotDims.plain M K N).lhsIdx (ix2 i j) ((contrEquiv1 (DotDims.plain M K N) K rfl rfl).symm k) = ix2 i k :=
  funext fun a => Fin.ext (by
    have hk := contrEquiv1_symm_val (DotDims.plain M K N) K rfl rfl k
    match a with
    | ⟨0, _⟩ => exact lhs_plain_0 M K N _ _
    | ⟨1, _⟩ => exact (lhs_plain_1 M K N _ _).trans hk)

/-- At output entry (i, j) and contraction position k the right operand is read at (k, j). -/
theorem rhsIdx_plain (i : Fin M) (j : Fin N) (k : Fin K) :
    (DotDims.plain M K N).rhsIdx (ix2 i j) ((contrEquiv1 (DotDims.plain M K N) K rfl rfl).symm k) = ix2 k j :=
  funext fun a => Fin.ext (by
    have hk := contrEquiv1_symm_val (DotDims.plain M K N) K rfl rfl k
    match a with
    | ⟨0, _⟩ => exact (rhs_plain_0 M K N _ _).trans hk
    | ⟨1, _⟩ => exact rhs_plain_1 M K N _ _)

/-- The sum over the plain product's contraction index set of the operands' products at entry (i, j) is
    Σₖ l(i, k) · r(k, j). -/
theorem sum_plain (l : (⟨2, ![M, K]⟩ : Shape).Idx → EReal) (r : (⟨2, ![K, N]⟩ : Shape).Idx → EReal)
    (i : Fin M) (j : Fin N) :
    (∑ q : (DotDims.plain M K N).contr.Idx,
        l ((DotDims.plain M K N).lhsIdx (ix2 i j) q) * r ((DotDims.plain M K N).rhsIdx (ix2 i j) q))
      = ∑ k : Fin K, l (ix2 i k) * r (ix2 k j) := by
  rw [← Equiv.sum_comp (contrEquiv1 (DotDims.plain M K N) K rfl rfl).symm]
  refine Finset.sum_congr rfl fun k _ => ?_
  rw [lhsIdx_plain, rhsIdx_plain]

/-- Entry (i, j) of a host program's plain product: Σₖ l(i, k) · r(k, j). -/
theorem dg_plain {φ₁ φ₂ : FTy} (l : FVec Ideal ⟨2, ![M, K]⟩ φ₁) (r : FVec Ideal ⟨2, ![K, N]⟩ φ₂)
    (i : Fin M) (j : Fin N) :
    Host.dotGeneral (F := Ideal) (DotDims.plain M K N) none l r (ix2 i j)
      = ∑ k : Fin K, l (ix2 i k) * r (ix2 k j) :=
  (Ideal.dotGeneral_apply (DotDims.plain M K N) none .single l r _).trans (sum_plain M K N l r i j)

/-- Entry (i, j) of a kernel's plain product into a zero accumulator: Σₖ l(i, k) · r(k, j). -/
theorem mm_plain {φ₁ φ₂ : FTy} (l : FVec Ideal ⟨2, ![M, K]⟩ φ₁) (r : FVec Ideal ⟨2, ![K, N]⟩ φ₂)
    (i : Fin M) (j : Fin N) :
    matmul (DotDims.plain M K N) none l r (constant (F := Ideal) ⟨2, ![M, N]⟩ .f32 0x00000000#32) (ix2 i j)
      = ∑ k : Fin K, l (ix2 i k) * r (ix2 k j) :=
  (Ideal.matmul_constant_zero_apply (DotDims.plain M K N) none l r _).trans (sum_plain M K N l r i j)

end Cert.LibDot

end
-- ==== Proof.KernelRead.lean ====
/-
  The kernel body's value at one entry of its output block.

  At a grid point the body holds one batch: the adjacency block `x0` (1 × n × n), the feature block `x1`
  (1 × n × F) and the weights `x2` (F × G).  It forms the column `D i = rsqrt (Σ_j x0 (0, i, j) + 1)`, the scaled
  features `D j · x1 (0, j, f)`, the aggregate `D i · (Σ_j x0 (0, i, j) · (D j · x1 (0, j, f)) + D i · x1 (0, i, f))`
  and the product of the aggregate with the weights.  Each step is read at an index: a shape cast that drops or adds
  a unit axis reads the same entry, a kept column broadcast along a row reads the column's entry, a sum over the
  last axis is the finite sum over that axis, a matrix product into a zero accumulator is the sum of products, and a
  change of float format is the identity on the extended reals.  The result is the arrangement
  `Cert.Gcn.pulledThrough` of the batch's three blocks.
-/
import proofs.«123125_j77713138253972_1_alg».proof.Proof.Gen.KernelIdeal.Skeleton
import proofs.«123125_j77713138253972_1_alg».proof.Proof.GcnAlgebra
import proofs.«123125_j77713138253972_1_alg».proof.Proof.LibColumn
import proofs.«123125_j77713138253972_1_alg».proof.Proof.LibDotPlain
import Idealize.ShloMosaic.Lib.ValueLayout
import Idealize.ShloMosaic.Lib.IdealHost
import Idealize.ShloMosaic.PureOps.Ideal.Laws

noncomputable section

namespace Cert.KernelIdeal.Body

open Cert.KernelIdeal Cert.KernelIdeal.Gen Idealize.ShloMosaic Idealize.ShloMosaic.ValueIdx

/-- Both products of the body are plain products: rows by columns, no batch axis. -/
theorem dotA_eq : dot_S1024x1024_S1024x128_S1024x128_1_0_0_1_n_n = DotDims.plain 1024 1024 128 := rfl
theorem dotW_eq : dot_S1024x128_S128x128_S1024x128_1_0_0_1_n_n = DotDims.plain 1024 128 128 := rfl

/-- The adjacency block without its unit batch axis. -/
def adj (x0 : Vec Ideal S1x1024x1024 .f32) : FVec Ideal S1024x1024 .f32 :=
  shapeCast S1024x1024 x0 shapeCasts_S1x1024x1024_S1024x1024

theorem adj_apply (x0 : Vec Ideal S1x1024x1024 .f32) (i j : Fin 1024) : adj x0 (ix2 i j) = x0 (ix3 (0 : Fin 1) i j) :=
  shapeCast_1ab_ab_apply x0 _ i j

/-- The column of reciprocal square roots of the row degrees of `a + I`. -/
def dinvCol (x0 : Vec Ideal S1x1024x1024 .f32) : FVec Ideal S1024x1 .f32 :=
  rsqrt (addf (shapeCast S1024x1 (multiReduction .add [1] S1024 (adj x0) 0x00000000#32 reduces_S1024x1024_S1024 (.inl rfl) rfl)
    shapeCasts_S1024_S1024x1) (broadcast S1024x1 (Scalar.ofBits .f32 0x3F800000#32)))

theorem rowSum_apply (x0 : Vec Ideal S1x1024x1024 .f32) (i : Fin 1024) :
    multiReduction .add [1] S1024 (adj x0) 0x00000000#32 reduces_S1024x1024_S1024 (.inl rfl) rfl (ix1 i)
      = ∑ j : Fin 1024, x0 (ix3 (0 : Fin 1) i j) := by
  refine (Ideal.multiReduction_add_single (adj x0) 0x00000000#32 reduces_S1024x1024_S1024 (.inl rfl) rfl (ix1 i)).trans ?_
  show ∑ k : Fin 1024, adj x0 (reduces_S1024x1024_S1024.lift (ix1 i) k) = _
  refine Finset.sum_congr rfl fun j _ => ?_
  have e : reduces_S1024x1024_S1024.lift (ix1 i) j = ix2 i j :=
    funext fun a => Fin.ext (by match a with | ⟨0, _⟩ => rfl | ⟨1, _⟩ => rfl)
  rw [e, adj_apply]

theorem dinvCol_apply (x0 : Vec Ideal S1x1024x1024 .f32) (i : Fin 1024) (u : Fin 1) :
    dinvCol x0 (ix2 i u) = Ideal.rsqrt ((∑ j : Fin 1024, x0 (ix3 (0 : Fin 1) i j)) + 1) := by
  unfold dinvCol
  show Ideal.rsqrt (shapeCast S1024x1 _ shapeCasts_S1024_S1024x1 (ix2 i u) + Ideal.ofBits .f32 0x3F800000#32) = _
  rw [Cert.LibColumn.shapeCast_a_a1_apply, rowSum_apply, Ideal.ofBits_one_f32]

/-- The features scaled row by row. -/
def scaled (x0 : Vec Ideal S1x1024x1024 .f32) (x1 : Vec Ideal S1x1024x128 .f32) : FVec Ideal S1024x128 .f32 :=
  mulf (broadcastTo S1024x128 (dinvCol x0) broadcasts_S1024x1_S1024x128)
    (shapeCast S1024x128 x1 shapeCasts_S1x1024x128_S1024x128)

theorem scaled_apply (x0 : Vec Ideal S1x1024x1024 .f32) (x1 : Vec Ideal S1x1024x128 .f32) (j : Fin 1024) (f : Fin 128) :
    scaled x0 x1 (ix2 j f)
      = Ideal.rsqrt ((∑ l : Fin 1024, x0 (ix3 (0 : Fin 1) j l)) + 1) * x1 (ix3 (0 : Fin 1) j f) := by
  unfold scaled
  rw [mulf_apply, Cert.LibColumn.broadcastTo_a1_ab_apply, dinvCol_apply, shapeCast_1ab_ab_apply]

/-- The aggregate: the product with the adjacency plus the scaled features themselves, scaled again. -/
def aggregated (x0 : Vec Ideal S1x1024x1024 .f32) (x1 : Vec Ideal S1x1024x128 .f32) : FVec Ideal S1024x128 .f32 :=
  mulf (broadcastTo S1024x128 (dinvCol x0) broadcasts_S1024x1_S1024x128)
    (addf (matmul dot_S1024x1024_S1024x128_S1024x128_1_0_0_1_n_n none (truncf .bf16 (adj x0) bitsLt_bf16_f32)
        (truncf .bf16 (scaled x0 x1) bitsLt_bf16_f32) (constant S1024x128 .f32 0x00000000#32))
      (scaled x0 x1))

theorem aggregated_apply (x0 : Vec Ideal S1x1024x1024 .f32) (x1 : Vec Ideal S1x1024x128 .f32) (i : Fin 1024) (f : Fin 128) :
    aggregated x0 x1 (ix2 i f)
      = Ideal.rsqrt ((∑ j : Fin 1024, x0 (ix3 (0 : Fin 1) i j)) + 1)
        * ((∑ j : Fin 1024, x0 (ix3 (0 : Fin 1) i j)
              * (Ideal.rsqrt ((∑ l : Fin 1024, x0 (ix3 (0 : Fin 1) j l)) + 1) * x1 (ix3 (0 : Fin 1) j f)))
            + Ideal.rsqrt ((∑ j : Fin 1024, x0 (ix3 (0 : Fin 1) i j)) + 1) * x1 (ix3 (0 : Fin 1) i f)) := by
  unfold aggregated
  rw [mulf_apply, Cert.LibColumn.broadcastTo_a1_ab_apply, dinvCol_apply, addf_apply, scaled_apply, dotA_eq,
    Cert.LibDot.mm_plain]
  refine congrArg (fun t => _ * (t + _)) (Finset.sum_congr rfl fun j _ => ?_)
  rw [truncf_apply, truncf_apply, adj_apply, scaled_apply]

/-- The body's payload is the product of the aggregate with the weights, given back its unit batch axis. -/
theorem pay_eq (x0 : Vec Ideal S1x1024x1024 .f32) (x1 : Vec Ideal S1x1024x128 .f32) (x2 : Vec Ideal S128x128 .f32) :
    k0_pay1 (F := Ideal) x0 x1 x2
      = shapeCast S1x1024x128 (matmul dot_S1024x128_S128x128_S1024x128_1_0_0_1_n_n none
          (truncf .bf16 (aggregated x0 x1) bitsLt_bf16_f32) (truncf .bf16 x2 bitsLt_bf16_f32)
          (constant S1024x128 .f32 0x00000000#32)) shapeCasts_S1024x128_S1x1024x128 := rfl

/-- The payload at entry `(0, i, g)` is the pulled-through arrangement of the batch's blocks. -/
theorem pay_apply (x0 : Vec Ideal S1x1024x1024 .f32) (x1 : Vec Ideal S1x1024x128 .f32) (x2 : Vec Ideal S128x128 .f32)
    (u : Fin 1) (i : Fin 1024) (g : Fin 128) :
    k0_pay1 (F := Ideal) x0 x1 x2 (ix3 u i g)
      = Cert.Gcn.pulledThrough (fun i j => x0 (ix3 (0 : Fin 1) i j)) (fun j f => x1 (ix3 (0 : Fin 1) j f))
          (fun f g => x2 (ix2 f g)) i g := by
  rw [pay_eq, shapeCast_ab_1ab_apply, dotW_eq, Cert.LibDot.mm_plain]
  unfold Cert.Gcn.pulledThrough
  refine Finset.sum_congr rfl fun f _ => ?_
  rw [truncf_apply, truncf_apply, aggregated_apply]

end Cert.KernelIdeal.Body

end
-- ==== Proof.KernelValue.lean ====
/-
  The kernel's output array as one function of the argument arrays.

  The grid has one point per batch.  At point `t` the three input windows hold batch `t` of the adjacency and of
  the features, and the whole weight matrix; the output window's block is batch `t` of the result.  So what point
  `t` writes back is block `t` of the array whose entry `(b, i, g)` is the pulled-through arrangement
  (`Cert.Gcn.pulledThrough`) of batch `b`'s slices — the body's payload at `(0, i, g)` read on the blocks.  The sixteen
  blocks tile the output array (entry `(b, i, g)` lies in block `b`), hence the array after the run is that function.
-/
import proofs.«123125_j77713138253972_1_alg».proof.Proof.Gen.KernelIdeal.Value
import proofs.«123125_j77713138253972_1_alg».proof.Proof.KernelRead

noncomputable section

namespace Cert.KernelIdeal.Whole

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-- Entry `(b, i, g)` of the convolution, the scaling pulled through, from the whole argument arrays. -/
def convAt (X : S16x1024x128.Idx → EReal) (A : S16x1024x1024.Idx → EReal) (W : S128x128.Idx → EReal)
    (b : Fin 16) (i : Fin 1024) (g : Fin 128) : EReal :=
  Cert.Gcn.pulledThrough (fun i j => A (ix3 b i j)) (fun j f => X (ix3 b j f)) (fun f g => W (ix2 f g)) i g

/-- The whole output array. -/
def conv (X : S16x1024x128.Idx → EReal) (A : S16x1024x1024.Idx → EReal) (W : S128x128.Idx → EReal) :
    S16x1024x128.Idx → EReal :=
  fun y => convAt X A W (y 0) (y 1) (y 2)

theorem conv_ix3 (X : S16x1024x128.Idx → EReal) (A : S16x1024x1024.Idx → EReal) (W : S128x128.Idx → EReal)
    (b : Fin 16) (i : Fin 1024) (g : Fin 128) : conv X A W (ix3 b i g) = convAt X A W b i g := rfl

theorem hz3 : (![0, 0, 0] : Fin 3 → Nat) = fun _ => 0 := funext fun a => by fin_cases a <;> rfl
theorem hz2 : (![0, 0] : Fin 2 → Nat) = fun _ => 0 := funext fun a => by fin_cases a <;> rfl

/-- The printed index maps over the sixteen grid points: the batch windows sit at the output's batch index, at block
    `0` on the other axes; the weight window sits at block `(0, 0)`. -/
theorem idx_facts : ∀ t : Fin cfg0.N, win0_3.index t (0 : Fin 3) < 16 ∧ win0_3.index t (1 : Fin 3) = 0
    ∧ win0_3.index t (2 : Fin 3) = 0
    ∧ win0_0.index t (0 : Fin 3) = win0_3.index t (0 : Fin 3) ∧ win0_0.index t (1 : Fin 3) = 0 ∧ win0_0.index t (2 : Fin 3) = 0
    ∧ win0_1.index t (0 : Fin 3) = win0_3.index t (0 : Fin 3) ∧ win0_1.index t (1 : Fin 3) = 0 ∧ win0_1.index t (2 : Fin 3) = 0
    ∧ win0_2.index t (0 : Fin 2) = 0 ∧ win0_2.index t (1 : Fin 2) = 0 :=
  (by decide +kernel : ∀ t : Fin grid0.N, _)

/-- Every batch is some point's block. -/
theorem idx_onto : ∀ q : Fin 16, ∃ t : Fin cfg0.N, win0_3.index t = ![q.val, 0, 0] :=
  (by decide +kernel : ∀ q : Fin 16, ∃ t : Fin grid0.N, win0_3.index t = ![q.val, 0, 0])

/-- WHAT POINT `t` WRITES BACK is block `t` of the convolution of the argument arrays as the region finds them. -/
theorem flushed_eq (c : Dev nD) (t : Fin cfg0.N) :
    (dats m 0 c).flushed 3 t
      = ((cfg0.win 3).blk t).view.read (Elt Ideal) (conv (V m c main_arg0) (V m c main_arg1) (V m c main_arg2)) := by
  rw [Value.flushed3]
  unfold out0_3
  rw [View.canon_unit_zero hz3]
  simp only [View.ld_unit_zero (S := S1x1024x1024) hz3, View.ld_unit_zero (S := S1x1024x128) hz3,
    View.ld_unit_zero (S := S128x128) hz2]
  obtain ⟨e0, e1, e2, a0, a1, a2, x0, x1, x2, w0, w1⟩ := idx_facts t
  funext y
  obtain ⟨u, i, g, rfl⟩ : ∃ (u : Fin 1) (i : Fin 1024) (g : Fin 128), y = ix3 u i g := ⟨y 0, y 1, y 2, eq_ix3 y⟩
  have hu : u.val = 0 := by omega
  show k0_pay1 (F := Ideal) (iblk m c 0 t) (iblk m c 1 t) (iblk m c 2 t) (ix3 u i g)
    = conv (V m c main_arg0) (V m c main_arg1) (V m c main_arg2) (((cfg0.win 3).blk t).view.emb (ix3 u i g))
  refine (Cert.KernelIdeal.Body.pay_apply (iblk m c 0 t) (iblk m c 1 t) (iblk m c 2 t) u i g).trans ?_
  have hb : ((cfg0.win 3).blk t).view.emb (ix3 u i g) = ix3 (⟨win0_3.index t (0 : Fin 3), e0⟩ : Fin 16) i g := by
    funext a; apply Fin.ext
    match a with
    | ⟨0, _⟩ => show win0_3.index t (0 : Fin 3) * 1 + 1 * u.val = win0_3.index t (0 : Fin 3); omega
    | ⟨1, _⟩ => show win0_3.index t (1 : Fin 3) * 1024 + 1 * i.val = i.val; omega
    | ⟨2, _⟩ => show win0_3.index t (2 : Fin 3) * 128 + 1 * g.val = g.val; omega
  rw [hb, conv_ix3]
  unfold convAt
  have hA : (fun (i j : Fin 1024) => iblk m c 0 t (ix3 (0 : Fin 1) i j))
      = fun i j => V m c main_arg1 (ix3 (⟨win0_3.index t (0 : Fin 3), e0⟩ : Fin 16) i j) := by
    funext i j
    show V m c main_arg1 (((cfg0.win 0).blk t).view.emb (ix3 (0 : Fin 1) i j)) = _
    refine congrArg (V m c main_arg1) (funext fun a => Fin.ext ?_)
    match a with
    | ⟨0, _⟩ => show win0_0.index t (0 : Fin 3) * 1 + 1 * 0 = win0_3.index t (0 : Fin 3); omega
    | ⟨1, _⟩ => show win0_0.index t (1 : Fin 3) * 1024 + 1 * i.val = i.val; omega
    | ⟨2, _⟩ => show win0_0.index t (2 : Fin 3) * 1024 + 1 * j.val = j.val; omega
  have hX : (fun (j : Fin 1024) (f : Fin 128) => iblk m c 1 t (ix3 (0 : Fin 1) j f))
      = fun j f => V m c main_arg0 (ix3 (⟨win0_3.index t (0 : Fin 3), e0⟩ : Fin 16) j f) := by
    funext j f
    show V m c main_arg0 (((cfg0.win 1).blk t).view.emb (ix3 (0 : Fin 1) j f)) = _
    refine congrArg (V m c main_arg0) (funext fun a => Fin.ext ?_)
    match a with
    | ⟨0, _⟩ => show win0_1.index t (0 : Fin 3) * 1 + 1 * 0 = win0_3.index t (0 : Fin 3); omega
    | ⟨1, _⟩ => show win0_1.index t (1 : Fin 3) * 1024 + 1 * j.val = j.val; omega
    | ⟨2, _⟩ => show win0_1.index t (2 : Fin 3) * 128 + 1 * f.val = f.val; omega
  have hW : (fun (f g : Fin 128) => iblk m c 2 t (ix2 f g)) = fun f g => V m c main_arg2 (ix2 f g) := by
    funext f g
    show V m c main_arg2 (((cfg0.win 2).blk t).view.emb (ix2 f g)) = _
    refine congrArg (V m c main_arg2) (funext fun a => Fin.ext ?_)
    match a with
    | ⟨0, _⟩ => show win0_2.index t (0 : Fin 2) * 128 + 1 * f.val = f.val; omega
    | ⟨1, _⟩ => show win0_2.index t (1 : Fin 2) * 128 + 1 * g.val = g.val; omega
  rw [hA, hX, hW]

/-- An index of the array is in point `t`'s block iff each coordinate is in the block's range on its axis. -/
theorem mem_blk (t : Fin cfg0.N) (i : S16x1024x128.Idx) :
    i ∈ ((cfg0.win 3).blk t).view.set ↔ ∀ a : Fin 3, win0_3.index t a * S1x1024x128.size a ≤ (i a).val
      ∧ (i a).val < win0_3.index t a * S1x1024x128.size a + S1x1024x128.size a := by
  show i ∈ ((View.whole main_v0).slice (win0_3.rect t)).set ↔ _
  rw [View.set_slice_whole, Rect.mem_set_unit]
  exact Iff.rfl

/-- Every entry of the output array lies in its batch's block. -/
theorem cover (i : S16x1024x128.Idx) :
    ∃ t : Fin cfg0.N, (cfg0.win 3).flush t = true ∧ i ∈ ((cfg0.win 3).blk t).view.set := by
  have h0 : (i 0).val < 16 := (i 0).isLt
  have h1 : (i 1).val < 1024 := (i 1).isLt
  have h2 : (i 2).val < 128 := (i 2).isLt
  obtain ⟨t, ht⟩ := idx_onto ⟨(i 0).val, h0⟩
  have q0 : win0_3.index t (0 : Fin 3) = (i 0).val := congrFun ht 0
  have q1 : win0_3.index t (1 : Fin 3) = 0 := congrFun ht 1
  have q2 : win0_3.index t (2 : Fin 3) = 0 := congrFun ht 2
  refine ⟨t, flush0_3 t, ?_⟩
  rw [mem_blk]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 1024 ≤ (i 1).val ∧ (i 1).val < win0_3.index t (1 : Fin 3) * 1024 + 1024; omega
  | ⟨2, _⟩ => show win0_3.index t (2 : Fin 3) * 128 ≤ (i 2).val ∧ (i 2).val < win0_3.index t (2 : Fin 3) * 128 + 128; omega

/-- THE ARRAY after the run is the convolution of the argument arrays. -/
theorem final (c : Dev nD) :
    (dats m 0 c).arrAt 3 cfg0.N = conv (m ((c : Thread nD τ).loc main_arg0)) (m ((c : Thread nD τ).loc main_arg1))
      (m ((c : Thread nD τ).loc main_arg2)) :=
  (dats m 0 c).arrAt_eq_of_cover 3 (conv (V m c main_arg0) (V m c main_arg1) (V m c main_arg2))
    (fun t _ => flushed_eq m c t) cover

/-- The run, with the output array named. -/
theorem run : θ_run defs (onTc (τ := τ) (main (F := Ideal))) ⟨m, fun _ => 0, ρ⟩ fun r => ∀ c : Dev nD,
      r.2.mem ((c : Thread nD τ).loc main_v0) = conv (m ((c : Thread nD τ).loc main_arg0))
        (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Value.run_blocks m ρ)

end Cert.KernelIdeal.Whole

end
-- ==== Proof.RefRead.lean ====
/-
  The reference's result at one entry.

  The reference adds the identity matrix to every batch of the adjacency, sums each row of `a + I` into its degree,
  takes `1 / sqrt` of the degree, multiplies entry `(i, j)` of `a + I` by the value for row `i` and then by the value
  for row `j`, and applies the two products (by the features, then by the weights).  The identity's entry `(i, j)`
  is the conversion to a float of the bit "`i + 0 = j` as 32-bit words", which is `1` when `i = j` and `0` otherwise
  because both numbers are below `2 ^ 32`.  Reading the generated stages at an index, batch by batch, gives the
  arrangement `Cert.Gcn.normalisedMatrix` of that batch's slices.
-/
import proofs.«123125_j77713138253972_1_alg».proof.Proof.Gen.ReferenceIdeal.Read
import proofs.«123125_j77713138253972_1_alg».proof.Proof.GcnAlgebra
import Idealize.ShloMosaic.Lib.IdealHost
import Idealize.ShloMosaic.Lib.StableHlo.Predicate

noncomputable section

namespace Cert.ReferenceIdeal.RefValue

open Cert.ReferenceIdeal Cert.ReferenceIdeal.Gen Cert.ReferenceIdeal.Read Idealize.ShloMosaic Idealize.ShloMosaic.ValueIdx

/-- Entry `(i, j)` of the identity matrix as the reference builds it. -/
def eyeEntry (i j : Fin 1024) : EReal :=
  FloatOps.uitofp (F := Ideal) .f32
    (IntOp.cmpi .eq (IntOp.addi (BitVec.ofNat 32 i.val) 0#32) (BitVec.ofNat 32 j.val))

/-- It is `1` on the diagonal and `0` off it. -/
theorem eyeEntry_eq (i j : Fin 1024) : eyeEntry i j = ((if i = j then 1 else 0 : ℝ) : EReal) := by
  unfold eyeEntry
  show (((IntOp.cmpi .eq (IntOp.addi (BitVec.ofNat 32 i.val) 0#32) (BitVec.ofNat 32 j.val)).toNat : ℝ) : EReal) = _
  have hi : i.val < 1024 := i.isLt
  have hj : j.val < 1024 := j.isLt
  by_cases h : i = j
  · subst h
    rw [if_pos rfl, StableHlo.Predicate.cmpi_eq_iff.2 (by simp [IntOp.addi])]
    simp
  · rw [if_neg h]
    have hne : ¬ IntOp.cmpi .eq (IntOp.addi (BitVec.ofNat 32 i.val) 0#32) (BitVec.ofNat 32 j.val) = 1#1 := by
      rw [StableHlo.Predicate.cmpi_eq_iff]
      intro e
      apply h
      apply Fin.ext
      have e' := congrArg BitVec.toNat e
      simp [IntOp.addi, BitVec.toNat_ofNat] at e'
      omega
    rw [ValueIdx.eq_zero_of_ne_one hne]
    simp

theorem eye_apply (b : Fin 16) (i j : Fin 1024) : val_main_v7 (F := Ideal) (ix3 b i j) = eyeEntry i j := by
  rw [val_main_v7_apply, val_main_v6_apply, val_main_v5_apply, val_main_v4_apply, val_main_v3_apply, val_main_v0_apply,
    val_main_v1_apply, val_main_v2_apply, val_main_c_apply]
  rfl

/-- Entry `(b, i, j)` of `a + I`. -/
theorem aHat_apply (A : (⟨S16x1024x1024, .f32⟩ : BufTy).Contents (Elt Ideal)) (b : Fin 16) (i j : Fin 1024) :
    val_main_v8 (F := Ideal) A (ix3 b i j) = A (ix3 b i j) + eyeEntry i j := by
  rw [val_main_v8_apply, eye_apply]
  rfl

/-- The row degree of `a + I`. -/
theorem deg_apply (A : (⟨S16x1024x1024, .f32⟩ : BufTy).Contents (Elt Ideal)) (b : Fin 16) (i : Fin 1024) :
    val_main_v9 (F := Ideal) A (ix2 b i) = 0 + ∑ l : Fin 1024, (A (ix3 b i l) + eyeEntry i l) := by
  rw [val_main_v9_apply, val_main_cst_apply]
  show Ideal.ofBits .f32 0x00000000#32 + _ = _
  rw [Ideal.ofBits_zero_f32]
  refine congrArg (0 + ·) (Finset.sum_congr rfl fun l _ => ?_)
  rw [← aHat_apply]
  exact congrArg (val_main_v8 (F := Ideal) A)
    (funext fun a => Fin.ext (by match a with | ⟨0, _⟩ => rfl | ⟨1, _⟩ => rfl | ⟨2, _⟩ => rfl))

/-- The reciprocal square root of the row degree, spelt `1 / sqrt`. -/
theorem dinv_apply (A : (⟨S16x1024x1024, .f32⟩ : BufTy).Contents (Elt Ideal)) (b : Fin 16) (i : Fin 1024) :
    val_main_v12 (F := Ideal) A (ix2 b i)
      = Ideal.div 1 (Ideal.sqrt (0 + ∑ l : Fin 1024, (A (ix3 b i l) + eyeEntry i l))) := by
  rw [val_main_v12_apply, val_main_v11_apply, val_main_cst_0_apply, val_main_v10_apply, deg_apply]
  show Ideal.div (Ideal.ofBits .f32 0x3F800000#32) (Ideal.sqrt _) = _
  rw [Ideal.ofBits_one_f32]

/-- Entry `(b, i, j)` of the normalised matrix. -/
theorem norm_apply (A : (⟨S16x1024x1024, .f32⟩ : BufTy).Contents (Elt Ideal)) (b : Fin 16) (i j : Fin 1024) :
    val_main_v18 (F := Ideal) A (ix3 b i j)
      = ((A (ix3 b i j) + eyeEntry i j) * Ideal.div 1 (Ideal.sqrt (0 + ∑ l : Fin 1024, (A (ix3 b i l) + eyeEntry i l))))
        * Ideal.div 1 (Ideal.sqrt (0 + ∑ l : Fin 1024, (A (ix3 b j l) + eyeEntry j l))) := by
  rw [val_main_v18_apply, val_main_v15_apply, val_main_v14_apply, val_main_v13_apply, val_main_v17_apply,
    val_main_v16_apply, aHat_apply]
  have e1 : idx_main_v13 (idx_main_v14 (ix3 b i j)) = ix2 b i :=
    funext fun a => Fin.ext (by match a with | ⟨0, _⟩ => rfl | ⟨1, _⟩ => rfl)
  have e2 : idx_main_v16 (idx_main_v17 (ix3 b i j)) = ix2 b j :=
    funext fun a => Fin.ext (by match a with | ⟨0, _⟩ => rfl | ⟨1, _⟩ => rfl)
  rw [e1, e2, dinv_apply, dinv_apply]
  rfl

/-- The reference's result at entry `(b, i, g)` is the normalised-matrix arrangement of batch `b`'s slices. -/
theorem result_apply (X : (⟨S16x1024x128, .f32⟩ : BufTy).Contents (Elt Ideal))
    (A : (⟨S16x1024x1024, .f32⟩ : BufTy).Contents (Elt Ideal)) (W : (⟨S128x128, .f32⟩ : BufTy).Contents (Elt Ideal))
    (b : Fin 16) (i : Fin 1024) (g : Fin 128) :
    val_main_v20 (F := Ideal) X A W (ix3 b i g)
      = Cert.Gcn.normalisedMatrix eyeEntry (fun i j => A (ix3 b i j)) (fun j f => X (ix3 b j f))
          (fun f g => W (ix2 f g)) i g := by
  rw [val_main_v20_apply]
  unfold Cert.Gcn.normalisedMatrix
  refine Finset.sum_congr rfl fun f _ => ?_
  have e1 : lidx_main_v20 (ix3 b i g) f = ix3 b i f :=
    funext fun a => Fin.ext (by match a with | ⟨0, _⟩ => rfl | ⟨1, _⟩ => rfl | ⟨2, _⟩ => rfl)
  have e2 : ridx_main_v20 (ix3 b i g) f = ix2 f g :=
    funext fun a => Fin.ext (by match a with | ⟨0, _⟩ => rfl | ⟨1, _⟩ => rfl)
  rw [e1, e2, val_main_v19_apply]
  refine congrArg (· * W (ix2 f g)) (Finset.sum_congr rfl fun j _ => ?_)
  have e3 : lidx_main_v19 (ix3 b i f) j = ix3 b i j :=
    funext fun a => Fin.ext (by match a with | ⟨0, _⟩ => rfl | ⟨1, _⟩ => rfl | ⟨2, _⟩ => rfl)
  have e4 : ridx_main_v19 (ix3 b i f) j = ix3 b j f :=
    funext fun a => Fin.ext (by match a with | ⟨0, _⟩ => rfl | ⟨1, _⟩ => rfl | ⟨2, _⟩ => rfl)
  rw [e3, e4, norm_apply]

end Cert.ReferenceIdeal.RefValue

end
-- ==== Proof.PreRead.lean ====
/-
  What the precondition says of the inputs.

  The precondition is a conjunction of four "every entry" tests, each an `and`-reduction of a mask to one bit:
  `|x| < +∞` for every entry of the features, of the adjacency and of the weights, and `deg > 0` for every row
  degree of `a + I`, where the degree is formed exactly as the reference forms it.  An extended real whose absolute
  value `max x (-x)` lies below `⊤` is neither `⊤` nor `⊥`, hence a real number; and `0 < deg` is read off the
  comparison bit directly.
-/
import proofs.«123125_j77713138253972_1_alg».proof.Pre_finite_inputs
import proofs.«123125_j77713138253972_1_alg».proof.Proof.Gen.Pre_finite_inputs
import proofs.«123125_j77713138253972_1_alg».proof.Proof.RefRead
import Idealize.ShloMosaic.Lib.ReduceAll
import Idealize.ShloMosaic.Lib.StableHlo.Predicate

noncomputable section

namespace Cert.PreRead

open Idealize.ShloMosaic Idealize.ShloMosaic.ValueIdx

/-- A rank-0 array has one index. -/
instance subsingletonScalarIdx : Subsingleton (⟨0, ![]⟩ : Shape).Idx := ⟨fun a b => funext fun d => d.elim0⟩

/-- A set comparison bit `x < y` gives `x < y`. -/
theorem lt_of_cmp_olt (x y : EReal) (h : Ideal.cmp .olt x y = 1#1) : x < y := by
  have h' : BitVec.ofBool (decide (x < y)) = 1#1 := h
  exact of_decide_eq_true ((StableHlo.Predicate.ofBool_eq_one_iff _).1 h')

/-- A set comparison bit `x > y` gives `y < x`. -/
theorem lt_of_cmp_ogt (x y : EReal) (h : Ideal.cmp .ogt x y = 1#1) : y < x := by
  have h' : BitVec.ofBool (decide (y < x)) = 1#1 := h
  exact of_decide_eq_true ((StableHlo.Predicate.ofBool_eq_one_iff _).1 h')

/-- An extended real with `|x| < +∞` is a real number. -/
theorem real_of_abs_lt_inf (x : EReal) (h : Ideal.cmp .olt (max x (-x)) (Ideal.ofBits .f32 0x7F800000#32) = 1#1) :
    ∃ r : ℝ, x = (r : EReal) := by
  have htop : Ideal.ofBits .f32 0x7F800000#32 = ⊤ := by simp [Ideal.ofBits, Ideal.ieee]
  have hlt := lt_of_cmp_olt _ _ h
  rw [htop] at hlt
  induction x using EReal.rec with
  | bot => exact absurd hlt (by simp)
  | coe r => exact ⟨r, rfl⟩
  | top => exact absurd hlt (by simp)

variable [Cert.Pre_finite_inputs.Facts]

/-- The precondition, decoded: every entry of the three inputs is a real number, and every row degree of `a + I`
    (the reference's own term for it) is positive. -/
theorem decode (X : FVec Ideal Cert.Pre_finite_inputs.S16x1024x128 .f32)
    (A : FVec Ideal Cert.Pre_finite_inputs.S16x1024x1024 .f32) (W : FVec Ideal Cert.Pre_finite_inputs.S128x128 .f32)
    (h : Cert.Pre_finite_inputs.fn (F := Ideal) X A W = fun _ => 1#1) :
    (∀ i, ∃ r : ℝ, X i = (r : EReal)) ∧ (∀ i, ∃ r : ℝ, A i = (r : EReal)) ∧ (∀ i, ∃ r : ℝ, W i = (r : EReal))
      ∧ ∀ (b : Fin 16) (i : Fin 1024),
          (0 : EReal) < 0 + ∑ l : Fin 1024, (A (ix3 b i l) + Cert.ReferenceIdeal.RefValue.eyeEntry i l) := by
  have h0 := congrFun h ix0
  dsimp only [Cert.Pre_finite_inputs.fn, Cert.Pre_finite_inputs.fn_part1] at h0
  obtain ⟨h123, hD⟩ := IntOp.andi_eq_one.1 h0
  obtain ⟨h12, hW⟩ := IntOp.andi_eq_one.1 h123
  obtain ⟨hX, hA⟩ := IntOp.andi_eq_one.1 h12
  refine ⟨fun i => ?_, fun i => ?_, fun i => ?_, fun b i => ?_⟩
  · exact real_of_abs_lt_inf (X i) (Host.reduce_andi_all _ _ _ _ _ hX i)
  · exact real_of_abs_lt_inf (A i) (Host.reduce_andi_all _ _ _ _ _ hA i)
  · exact real_of_abs_lt_inf (W i) (Host.reduce_andi_all _ _ _ _ _ hW i)
  · have hc : Ideal.cmp .ogt (Cert.ReferenceIdeal.Read.val_main_v9 (F := Ideal) A (ix2 b i)) (Ideal.ofBits .f32 0x00000000#32) = 1#1 :=
      Host.reduce_andi_all _ _ _ _ _ hD (ix2 b i)
    have hpos := lt_of_cmp_ogt _ _ hc
    rw [Ideal.ofBits_zero_f32, Cert.ReferenceIdeal.RefValue.deg_apply] at hpos
    exact hpos

end Cert.PreRead

end
-- ==== Proof.Bridge.lean ====
/-
  The kernel's array and the reference's array are the same function of the inputs.

  Under the precondition every entry of the three inputs is a real number and every row degree of `a + I` is
  positive.  Batch by batch the kernel's entry is the pulled-through arrangement and the reference's entry is the
  normalised-matrix arrangement of the same slices, and these agree on real entries with positive degrees
  (`Cert.Gcn.pulledThrough_eq_normalisedMatrix`).
-/
import proofs.«123125_j77713138253972_1_alg».proof.Proof.KernelValue
import proofs.«123125_j77713138253972_1_alg».proof.Proof.RefRead
import proofs.«123125_j77713138253972_1_alg».proof.Proof.PreRead
import proofs.«123125_j77713138253972_1_alg».proof.Proof.GcnAlgebra

noncomputable section

namespace Cert.Bridge

open Idealize.ShloMosaic Idealize.ShloMosaic.ValueIdx

variable [Cert.Pre_finite_inputs.Facts]

theorem conv_eq_reference (X : Cert.KernelIdeal.S16x1024x128.Idx → EReal) (A : Cert.KernelIdeal.S16x1024x1024.Idx → EReal)
    (W : Cert.KernelIdeal.S128x128.Idx → EReal)
    (h : Cert.Pre_finite_inputs.fn (F := Ideal) X A W = fun _ => 1#1) :
    Cert.KernelIdeal.Whole.conv X A W = Cert.ReferenceIdeal.Read.val_main_v20 (F := Ideal) X A W := by
  obtain ⟨hX, hA, hW, hpos⟩ := Cert.PreRead.decode X A W h
  choose x hx using hX
  choose a ha using hA
  choose w hw using hW
  obtain rfl : X = fun k => (x k : EReal) := funext hx
  obtain rfl : A = fun k => (a k : EReal) := funext ha
  obtain rfl : W = fun k => (w k : EReal) := funext hw
  funext y
  obtain ⟨b, i, g, rfl⟩ : ∃ (b : Fin 16) (i : Fin 1024) (g : Fin 128), y = ix3 b i g := ⟨y 0, y 1, y 2, eq_ix3 y⟩
  rw [Cert.KernelIdeal.Whole.conv_ix3, Cert.ReferenceIdeal.RefValue.result_apply]
  exact Cert.Gcn.pulledThrough_eq_normalisedMatrix (fun i j => a (ix3 b i j)) (fun j f => x (ix3 b j f))
    (fun f g => w (ix2 f g)) Cert.ReferenceIdeal.RefValue.eyeEntry Cert.ReferenceIdeal.RefValue.eyeEntry_eq
    (fun i => hpos b i) i g

end Cert.Bridge

end
-- ==== Proof.lean ====
/-
  A normalised graph convolution, batch by batch: `out = D^(-1/2) (A + I) D^(-1/2) X W` with `D` the diagonal of row
  degrees of `A + I`.  The kernel never forms the normalised matrix: it scales the features by `D^(-1/2)`, multiplies
  by `A`, adds the scaled features (the identity's share), scales again and multiplies by `W`; the reference forms
  `(A + I) · d_i · d_j` entry by entry with `d = 1 / sqrt(deg)` and applies the two products.  On the extended reals the
  two agree where every input entry is finite and every row degree is positive — outside that domain the reference's
  `1 / sqrt(deg)` is `+∞` (at `deg = 0`) or undefined (at `deg < 0`), and the precondition states exactly this domain.
  The frames of both kernel programs are the generated ones; the reference's frame is its generated run; `preserves`
  has no entry; the value claim sets the kernel's output array (`Cert.KernelIdeal.Whole.run`) beside the reference's
  run and joins them by `Cert.Bridge.conv_eq_reference`.
-/
import proofs.«123125_j77713138253972_1_alg».proof.Defs
import proofs.«123125_j77713138253972_1_alg».proof.Proof.Gen.Kernel
import proofs.«123125_j77713138253972_1_alg».proof.Proof.Gen.Kernel.Skeleton
import proofs.«123125_j77713138253972_1_alg».proof.Proof.Gen.Kernel.Launch
import proofs.«123125_j77713138253972_1_alg».proof.Proof.Gen.Kernel.Points
import proofs.«123125_j77713138253972_1_alg».proof.Proof.Gen.Kernel.Frame
import proofs.«123125_j77713138253972_1_alg».proof.Proof.Gen.KernelIdeal
import proofs.«123125_j77713138253972_1_alg».proof.Proof.Gen.KernelIdeal.Skeleton
import proofs.«123125_j77713138253972_1_alg».proof.Proof.Gen.KernelIdeal.Launch
import proofs.«123125_j77713138253972_1_alg».proof.Proof.Gen.KernelIdeal.Points
import proofs.«123125_j77713138253972_1_alg».proof.Proof.Gen.KernelIdeal.Frame
import proofs.«123125_j77713138253972_1_alg».proof.Proof.Gen.ReferenceIdeal
import proofs.«123125_j77713138253972_1_alg».proof.Proof.Gen.Pre_finite_inputs
import proofs.«123125_j77713138253972_1_alg».proof.Proof.Gen.KernelIdeal.Value
import proofs.«123125_j77713138253972_1_alg».proof.Proof.Gen.ReferenceIdeal.Run
import proofs.«123125_j77713138253972_1_alg».proof.Proof.Gen.ReferenceIdeal.Read
import proofs.«123125_j77713138253972_1_alg».proof.Proof.Bridge
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- Both programs end with the convolution of the inputs in their result arrays. -/
theorem algebraic : Cert.algebraic_KernelIdeal_ReferenceIdeal := by
  intro m ρ m' ρ' hpre hagree
  refine ⟨_, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v20_eq, (hagree c).1, (hagree c).2.1, (hagree c).2.2]
  exact (Cert.Bridge.conv_eq_reference _ _ _ (hpre c)).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
